-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : FVec F S16777216 .f32) (main_arg2 : FVec F S16777216 .f32) (main_arg3 : IVec S16777216 32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S16777216 .f32 := Host.absf main_arg2
  let main_cst_2 : FVec F S_ .f32 := constant S_ .f32 0x7F800000#32
  let main_v10 : FVec F S16777216 .f32 := broadcastInDim S16777216 ![] bcast_S_S16777216 main_cst_2
  let main_v11 : IVec S16777216 1 := cmpf .olt main_v9 main_v10
  let main_c_3 : IVec S_ 1 := constantI S_ 1 1#1
  let main_v12 : IVec S_ 1 := (fun x v => Host.reduce IntOp.andi x v reducesTo_S16777216_S_d0 h_S_) main_v11 main_c_3
  let main_v13 : IVec S_ 1 := andi main_v8 main_v12
  main_v13
-- ==== Kernel.lean ====
abbrev S16777216 : Shape := ⟨1, ![16777216]⟩
abbrev S16384x1024 : Shape := ⟨2, ![16384, 1024]⟩
abbrev S256x1024 : Shape := ⟨2, ![256, 1024]⟩

abbrev nBuf : Space → Nat
  | .hbm => 12
  | .vmem => 12
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S16777216, .i32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .i32⟩
  | .hbm, ⟨8, _⟩ => ⟨S16384x1024, .f32⟩
  | .hbm, ⟨9, _⟩ => ⟨S16384x1024, .f32⟩
  | .hbm, ⟨10, _⟩ => ⟨S16777216, .f32⟩
  | .hbm, ⟨11, _⟩ => ⟨S16777216, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .i32⟩
  | .local _ .vmem, ⟨7, _⟩ => ⟨S256x1024, .i32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16777216_S16384x1024 : S16777216.ShapeCasts S16384x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  shapeCasts_S16384x1024_S16777216 : S16384x1024.ShapeCasts S16777216
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S16384x1024.size a
  hwx0_3 : ∀ i : grid0.Coords, EltTy.bits .i32 = 32 ∨ (Rect.block (s := S16384x1024) S256x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S16384x1024.size a
  hwx0_4 : ∀ i : grid0.Coords, EltTy.bits .f32 = 32 ∨ (Rect.block (s := S16384x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S16384x1024.size a
  hwx0_5 : ∀ i : grid0.Coords, EltTy.bits .f32 = 32 ∨ (Rect.block (s := S16384x1024) S256x1024.size (cc0_transform_5 i) (hinb0_5 i)).WholeWords (EltTy.packing .f32)

variable [Facts₀]

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16777216 : Shape := ⟨1, ![16777216]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S16777216, .i32⟩
  | .hbm, ⟨4, _⟩ => ⟨S_, .i32⟩
  | .hbm, ⟨5, _⟩ => ⟨S16777216, .i32⟩
  | .hbm, ⟨6, _⟩ => ⟨S16777216, .i1⟩
  | .hbm, ⟨7, _⟩ => ⟨S_, .i32⟩
  | .hbm, ⟨8, _⟩ => ⟨S16777216, .i32⟩
  | .hbm, ⟨9, _⟩ => ⟨S16777216, .i1⟩
  | .hbm, ⟨10, _⟩ => ⟨S_, .i32⟩
  | .hbm, ⟨11, _⟩ => ⟨S16777216, .i32⟩
  | .hbm, ⟨12, _⟩ => ⟨S16777216, .i1⟩
  | .hbm, ⟨13, _⟩ => ⟨S_, .f32⟩
  | .hbm, ⟨14, _⟩ => ⟨S16777216, .f32⟩
  | .hbm, ⟨15, _⟩ => ⟨S16777216, .f32⟩
  | .hbm, ⟨16, _⟩ => ⟨S16777216, .f32⟩
  | .hbm, ⟨17, _⟩ => ⟨S_, .f32⟩
  | .hbm, ⟨18, _⟩ => ⟨S16777216, .f32⟩
  | .hbm, ⟨19, _⟩ => ⟨S16777216, .i1⟩
  | .hbm, ⟨20, _⟩ => ⟨S16777216, .f32⟩
  | .hbm, ⟨21, _⟩ => ⟨S16777216, .f32⟩
  | .hbm, ⟨22, _⟩ => ⟨S16777216, .f32⟩
  | .hbm, ⟨23, _⟩ => ⟨S_, .f32⟩
  | .hbm, ⟨24, _⟩ => ⟨S16777216, .f32⟩
  | .hbm, ⟨25, _⟩ => ⟨S16777216, .f32⟩
  | .hbm, ⟨26, _⟩ => ⟨S16777216, .f32⟩
  | .hbm, ⟨27, _⟩ => ⟨S_, .f32⟩
  | .hbm, ⟨28, _⟩ => ⟨S16777216, .f32⟩
  | .hbm, ⟨29, _⟩ => ⟨S16777216, .f32⟩
  | .hbm, ⟨30, _⟩ => ⟨S16777216, .f32⟩
  | .hbm, ⟨31, _⟩ => ⟨S_, .f32⟩
  | .hbm, ⟨32, _⟩ => ⟨S16777216, .f32⟩
  | .hbm, ⟨33, _⟩ => ⟨S16777216, .f32⟩
  | .hbm, ⟨34, _⟩ => ⟨S16777216, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call1_v0 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_call3_v0 : Ref sig .tc := ⟨.hbm, 32, rfl⟩
abbrev main_v15 : Ref sig .tc := ⟨.hbm, 33, rfl⟩
abbrev main_v16 : Ref sig .tc := ⟨.hbm, 34, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)

variable [Facts₀]

class Facts : Prop extends Facts₀ where

variable [Facts]
-- ==== Proof.Encoder.lean ====
/-
  A wheel encoder read element by element.  A wheel turning at speed `ws` for one time step travels `ws · g` clicks, `g` the
  clicks per radian times the step; with the fraction `rc` of a click carried over from the step before, that is
  `x = ws · g + rc` clicks.  A healthy encoder (state 0) reports the whole clicks in it, `x` rounded toward zero — the
  ceiling below zero, the floor from zero up — as a speed again, `⌊x⌉₀ / g`, and carries the rest `x − ⌊x⌉₀`; a stuck one
  (state 2) repeats the reading it gave before; one that is off (state 1) reads zero and carries nothing; in every other
  state the reading is zero and the carried fraction stays.  Each element of the result depends on the one element of each
  input at the same place, so the arrays may be laid out as a vector or as rows of a matrix, and cut into tiles, at will:
  that is all that separates the two programs, and the last two lemmas say it.
-/
import Idealize.ShloMosaic.PureOps.Ideal
import Idealize.ShloMosaic.Lib.Pipeline.Value

noncomputable section

namespace Cert.Encoder

open Idealize.ShloMosaic

variable {F : FTy → Type} [FloatOps F]

/-- Clicks per radian times the time step: the one float word the travel is multiplied by and the count divided by. -/
def gain : F .f32 := FloatOps.ofBits .f32 0x42026136#32

/-- The float zero. -/
def nought : F .f32 := FloatOps.ofBits .f32 0x00000000#32

/-- Clicks travelled in the step, the carried fraction added. -/
def travelled (ws rc : F .f32) : F .f32 := FloatOps.addf (FloatOps.mulf ws gain) rc

/-- Rounding toward zero: the ceiling of a negative number, the floor of any other. -/
def towardZero (x : F .f32) : F .f32 :=
  Scalar.select (FloatOps.cmpf .olt x nought) (FloatOps.ceil x) (FloatOps.floor x)

/-- The speed the encoder reports, by its state. -/
def reading (ws rc conv : F .f32) (st : BitVec 32) : F .f32 :=
  Scalar.select (IntOp.cmpi .eq st 0#32) (FloatOps.divf (towardZero (travelled ws rc)) gain)
    (Scalar.select (IntOp.cmpi .eq st 2#32) conv nought)

/-- The fraction of a click it carries to the next step, by its state. -/
def carry (ws rc : F .f32) (st : BitVec 32) : F .f32 :=
  Scalar.select (IntOp.cmpi .eq st 0#32) (FloatOps.subf (travelled ws rc) (towardZero (travelled ws rc)))
    (Scalar.select (IntOp.cmpi .eq st 1#32) nought rc)

variable {s t : Shape}

/-- Every wheel's reading, over arrays of any one shape. -/
def readings (ws rc conv : s.Idx → F .f32) (st : s.Idx → BitVec 32) : s.Idx → F .f32 :=
  fun i => reading (ws i) (rc i) (conv i) (st i)

/-- Every wheel's carried fraction. -/
def carries (ws rc : s.Idx → F .f32) (st : s.Idx → BitVec 32) : s.Idx → F .f32 :=
  fun i => carry (ws i) (rc i) (st i)

/-- Laying the inputs out in another shape, reading, and laying the readings back is reading in place: a change of
    layout is a bijection of places, and a reading looks at one place. -/
theorem readings_relaid (ws rc conv : s.Idx → F .f32) (st : s.Idx → BitVec 32) (h : s.ShapeCasts t) (h' : t.ShapeCasts s) :
    shapeCast s (readings (shapeCast t ws h) (shapeCast t rc h) (shapeCast t conv h) (shapeCast t st h)) h'
      = readings ws rc conv st := by
  have e : shapeCast s (readings (shapeCast t ws h) (shapeCast t rc h) (shapeCast t conv h) (shapeCast t st h)) h'
      = readings (shapeCast s (shapeCast t ws h) h') (shapeCast s (shapeCast t rc h) h')
          (shapeCast s (shapeCast t conv h) h') (shapeCast s (shapeCast t st h) h') := rfl
  rw [e, shapeCast_shapeCast, shapeCast_shapeCast, shapeCast_shapeCast, shapeCast_shapeCast]

/-- The same for the carried fractions. -/
theorem carries_relaid (ws rc : s.Idx → F .f32) (st : s.Idx → BitVec 32) (h : s.ShapeCasts t) (h' : t.ShapeCasts s) :
    shapeCast s (carries (shapeCast t ws h) (shapeCast t rc h) (shapeCast t st h)) h' = carries ws rc st := by
  have e : shapeCast s (carries (shapeCast t ws h) (shapeCast t rc h) (shapeCast t st h)) h'
      = carries (shapeCast s (shapeCast t ws h) h') (shapeCast s (shapeCast t rc h) h')
          (shapeCast s (shapeCast t st h) h') := rfl
  rw [e, shapeCast_shapeCast, shapeCast_shapeCast, shapeCast_shapeCast]

end Cert.Encoder

end
-- ==== Proof.KernelValue.lean ====
/-
  The idealized kernel's two results, as whole arrays.  The program lays each of the four flat inputs out as 16384 rows of
  1024, runs a grid of 64 points over tiles of 256 whole rows — point `t` reads rows `256·t … 256·t + 255` of every input and
  writes the same rows of both outputs —, and lays the two outputs out flat again.  Inside a tile the body computes, place by
  place, a wheel's reading and its carried fraction from the four inputs at that place.  The tiles of an output are disjoint
  and together are the whole matrix (row `r` lies in tile `r / 256`), so after the grid each output matrix is the readings,
  or the carried fractions, of the input matrices; and a reading looks at one place, so laying out, reading and laying back
  is reading the flat inputs in place.
-/
import proofs.«145690_j80255758893556_1_alg».proof.Proof.Gen.KernelIdeal.Frame
import proofs.«145690_j80255758893556_1_alg».proof.Proof.Encoder
import Idealize.ShloMosaic.Lib.Pipeline.Value
import Idealize.ShloMosaic.Lib.StableHlo.Run

noncomputable section

namespace Cert.KernelIdeal.Tiles

open Cert.KernelIdeal Cert.KernelIdeal.Gen Cert.Encoder
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Inside a tile -/

/-- The first store's value is every place's reading: the three state masks are equalities with 0, 1 and 2, the travel
    is the speed times the gain plus the old fraction, rounded toward zero by a choice of ceiling or floor. -/
theorem stored_readings (x0 x1 x2 : Vec F S256x1024 .f32) (x3 : Vec F S256x1024 .i32) :
    k0_pay7 x0 x1 x2 x3 = readings x0 x1 x2 x3 := by
  unfold k0_pay7 k0_pay6 k0_pay5 k0_pay4 k0_pay3 k0_pay2 k0_pay1
  simp only [shapeCast_self]
  rfl

/-- The second store's value is every place's carried fraction. -/
theorem stored_carries (x0 x1 : Vec F S256x1024 .f32) (x3 : Vec F S256x1024 .i32) :
    k0_pay8 x0 x1 x3 = carries x0 x1 x3 := by
  unfold k0_pay8 k0_pay6 k0_pay5 k0_pay4 k0_pay3 k0_pay2 k0_pay1
  simp only [shapeCast_self]
  rfl

/-! ## The matrices the grid finds -/

/-- Each input matrix is its flat argument laid out in rows. -/
theorem rows0 (c : Dev nD) : (V m c main_v0 : S16384x1024.Idx → Elt F .f32)
    = shapeCast S16384x1024 (m ((c : Thread nD τ).loc main_arg0)) shapeCasts_S16777216_S16384x1024 := by
  show StableHlo.after hostOps0 (fun b => m (c, b)) (Proc.devRef .tc main_v0) = _
  after_results
  rfl
theorem rows1 (c : Dev nD) : (V m c main_v1 : S16384x1024.Idx → Elt F .f32)
    = shapeCast S16384x1024 (m ((c : Thread nD τ).loc main_arg1)) shapeCasts_S16777216_S16384x1024 := by
  show StableHlo.after hostOps0 (fun b => m (c, b)) (Proc.devRef .tc main_v1) = _
  after_results
  rfl
theorem rows2 (c : Dev nD) : (V m c main_v2 : S16384x1024.Idx → Elt F .f32)
    = shapeCast S16384x1024 (m ((c : Thread nD τ).loc main_arg2)) shapeCasts_S16777216_S16384x1024 := by
  show StableHlo.after hostOps0 (fun b => m (c, b)) (Proc.devRef .tc main_v2) = _
  after_results
  rfl
theorem rows3 (c : Dev nD) : (V m c main_v3 : S16384x1024.Idx → Elt F .i32)
    = shapeCast S16384x1024 (m ((c : Thread nD τ).loc main_arg3)) shapeCasts_S16777216_S16384x1024 := by
  show StableHlo.after hostOps0 (fun b => m (c, b)) (Proc.devRef .tc main_v3) = _
  after_results
  rfl

/-! ## Which rows a point's tiles are -/

theorem origin : (![0, 0] : Fin 2 → Nat) = fun _ => 0 := funext fun a => by fin_cases a <;> rfl

/-- At point `t` every window's tile is tile `t` down the rows and the only tile across: decided over the 64 points. -/
theorem tile_of_point : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The matrix of readings of the input matrices. -/
abbrev readingRows (c : Dev nD) : S16384x1024.Idx → Elt F .f32 :=
  readings (s := S16384x1024) (V m c main_v0) (V m c main_v1) (V m c main_v2) (V m c main_v3)

/-- The matrix of carried fractions of the input matrices. -/
abbrev carryRows (c : Dev nD) : S16384x1024.Idx → Elt F .f32 :=
  carries (s := S16384x1024) (V m c main_v0) (V m c main_v1) (V m c main_v3)

/-- What point `t` writes back to the first output is tile `t` of the matrix of readings: the body's value at a place of
    the tile looks at the same place of each input tile, and the input tiles are the same rows as the output's. -/
theorem wrote_readings (c : Dev nD) (t : Fin cfg0.N) :
    (dats m 0 c).flushed 4 t = ((cfg0.win 4).blk t).view.read (Elt F) (readingRows m c) := by
  show (cfg0.win 4).cut (grid0.coords t) ((dats m 0 c).after 4 t) = _
  rw [after0_4]
  unfold out0_4
  rw [View.canon_unit_zero origin]
  simp only [View.ld_unit_zero (S := S256x1024) origin]
  rw [stored_readings]
  obtain ⟨a0, b0, a1, b1, a2, b2, a3, b3, a4, b4, a5, b5⟩ := tile_of_point t
  funext j
  show reading (V m c main_v0 (((cfg0.win 0).blk t).view.emb j)) (V m c main_v1 (((cfg0.win 1).blk t).view.emb j))
      (V m c main_v2 (((cfg0.win 2).blk t).view.emb j)) (V m c main_v3 (((cfg0.win 3).blk t).view.emb j))
    = reading (V m c main_v0 (((cfg0.win 4).blk t).view.emb j)) (V m c main_v1 (((cfg0.win 4).blk t).view.emb j))
      (V m c main_v2 (((cfg0.win 4).blk t).view.emb j)) (V m c main_v3 (((cfg0.win 4).blk t).view.emb j))
  have h0 : ((cfg0.win 0).blk t).view.emb j = ((cfg0.win 4).blk t).view.emb j := by
    funext a; apply Fin.ext
    match a with
    | ⟨0, _⟩ => show win0_0.index t (0 : Fin 2) * 256 + 1 * (j 0).val = win0_4.index t (0 : Fin 2) * 256 + 1 * (j 0).val; omega
    | ⟨1, _⟩ => show win0_0.index t (1 : Fin 2) * 1024 + 1 * (j 1).val = win0_4.index t (1 : Fin 2) * 1024 + 1 * (j 1).val; omega
  have h1 : ((cfg0.win 1).blk t).view.emb j = ((cfg0.win 4).blk t).view.emb j := by
    funext a; apply Fin.ext
    match a with
    | ⟨0, _⟩ => show win0_1.index t (0 : Fin 2) * 256 + 1 * (j 0).val = win0_4.index t (0 : Fin 2) * 256 + 1 * (j 0).val; omega
    | ⟨1, _⟩ => show win0_1.index t (1 : Fin 2) * 1024 + 1 * (j 1).val = win0_4.index t (1 : Fin 2) * 1024 + 1 * (j 1).val; omega
  have h2 : ((cfg0.win 2).blk t).view.emb j = ((cfg0.win 4).blk t).view.emb j := by
    funext a; apply Fin.ext
    match a with
    | ⟨0, _⟩ => show win0_2.index t (0 : Fin 2) * 256 + 1 * (j 0).val = win0_4.index t (0 : Fin 2) * 256 + 1 * (j 0).val; omega
    | ⟨1, _⟩ => show win0_2.index t (1 : Fin 2) * 1024 + 1 * (j 1).val = win0_4.index t (1 : Fin 2) * 1024 + 1 * (j 1).val; omega
  have h3 : ((cfg0.win 3).blk t).view.emb j = ((cfg0.win 4).blk t).view.emb j := by
    funext a; apply Fin.ext
    match a with
    | ⟨0, _⟩ => show win0_3.index t (0 : Fin 2) * 256 + 1 * (j 0).val = win0_4.index t (0 : Fin 2) * 256 + 1 * (j 0).val; omega
    | ⟨1, _⟩ => show win0_3.index t (1 : Fin 2) * 1024 + 1 * (j 1).val = win0_4.index t (1 : Fin 2) * 1024 + 1 * (j 1).val; omega
  rw [h0, h1, h2, h3]

/-- What point `t` writes back to the second output is tile `t` of the matrix of carried fractions. -/
theorem wrote_carries (c : Dev nD) (t : Fin cfg0.N) :
    (dats m 0 c).flushed 5 t = ((cfg0.win 5).blk t).view.read (Elt F) (carryRows m c) := by
  show (cfg0.win 5).cut (grid0.coords t) ((dats m 0 c).after 5 t) = _
  rw [after0_5]
  unfold out0_5
  rw [View.canon_unit_zero origin]
  simp only [View.ld_unit_zero (S := S256x1024) origin]
  rw [stored_carries]
  obtain ⟨a0, b0, a1, b1, a2, b2, a3, b3, a4, b4, a5, b5⟩ := tile_of_point t
  funext j
  show carry (V m c main_v0 (((cfg0.win 0).blk t).view.emb j)) (V m c main_v1 (((cfg0.win 1).blk t).view.emb j))
      (V m c main_v3 (((cfg0.win 3).blk t).view.emb j))
    = carry (V m c main_v0 (((cfg0.win 5).blk t).view.emb j)) (V m c main_v1 (((cfg0.win 5).blk t).view.emb j))
      (V m c main_v3 (((cfg0.win 5).blk t).view.emb j))
  have h0 : ((cfg0.win 0).blk t).view.emb j = ((cfg0.win 5).blk t).view.emb j := by
    funext a; apply Fin.ext
    match a with
    | ⟨0, _⟩ => show win0_0.index t (0 : Fin 2) * 256 + 1 * (j 0).val = win0_5.index t (0 : Fin 2) * 256 + 1 * (j 0).val; omega
    | ⟨1, _⟩ => show win0_0.index t (1 : Fin 2) * 1024 + 1 * (j 1).val = win0_5.index t (1 : Fin 2) * 1024 + 1 * (j 1).val; omega
  have h1 : ((cfg0.win 1).blk t).view.emb j = ((cfg0.win 5).blk t).view.emb j := by
    funext a; apply Fin.ext
    match a with
    | ⟨0, _⟩ => show win0_1.index t (0 : Fin 2) * 256 + 1 * (j 0).val = win0_5.index t (0 : Fin 2) * 256 + 1 * (j 0).val; omega
    | ⟨1, _⟩ => show win0_1.index t (1 : Fin 2) * 1024 + 1 * (j 1).val = win0_5.index t (1 : Fin 2) * 1024 + 1 * (j 1).val; omega
  have h3 : ((cfg0.win 3).blk t).view.emb j = ((cfg0.win 5).blk t).view.emb j := by
    funext a; apply Fin.ext
    match a with
    | ⟨0, _⟩ => show win0_3.index t (0 : Fin 2) * 256 + 1 * (j 0).val = win0_5.index t (0 : Fin 2) * 256 + 1 * (j 0).val; omega
    | ⟨1, _⟩ => show win0_3.index t (1 : Fin 2) * 1024 + 1 * (j 1).val = win0_5.index t (1 : Fin 2) * 1024 + 1 * (j 1).val; omega
  rw [h0, h1, h3]

/-! ## The tiles are the whole matrix -/

/-- A place of the first output is in point `t`'s tile iff each coordinate is in the tile's range on its axis. -/
theorem in_tile4 (t : Fin cfg0.N) (i : S16384x1024.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v4_0).slice (win0_4.rect t)).set ↔ _
  rw [View.set_slice_whole, Rect.mem_set_unit]
  exact Iff.rfl

theorem in_tile5 (t : Fin cfg0.N) (i : S16384x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v4_1).slice (win0_5.rect t)).set ↔ _
  rw [View.set_slice_whole, Rect.mem_set_unit]
  exact Iff.rfl

/-- Row `r` of the first output lies in the tile of point `r / 256`, and every point writes its tile back. -/
theorem tiled4 (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  have hN : cfg0.N = 64 := N_0
  let t : Fin cfg0.N := ⟨(i 0).val / 256, by rw [hN]; omega⟩
  have ht : t.val = (i 0).val / 256 := rfl
  obtain ⟨a0, b0, a1, b1, a2, b2, a3, b3, a4, b4, a5, b5⟩ := tile_of_point t
  refine ⟨t, flush0_4 t, ?_⟩
  rw [in_tile4]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 1024 ≤ (i 1).val ∧ (i 1).val < win0_4.index t (1 : Fin 2) * 1024 + 1024; omega

theorem tiled5 (i : S16384x1024.Idx) :
    ∃ t : Fin cfg0.N, (cfg0.win 5).flush t = true ∧ i ∈ ((cfg0.win 5).blk t).view.set := by
  have hi0 : (i 0).val < 16384 := (i 0).isLt
  have hi1 : (i 1).val < 1024 := (i 1).isLt
  have hN : cfg0.N = 64 := N_0
  let t : Fin cfg0.N := ⟨(i 0).val / 256, by rw [hN]; omega⟩
  have ht : t.val = (i 0).val / 256 := rfl
  obtain ⟨a0, b0, a1, b1, a2, b2, a3, b3, a4, b4, a5, b5⟩ := tile_of_point t
  refine ⟨t, flush0_5 t, ?_⟩
  rw [in_tile5]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

/-- After the grid the first output matrix is the matrix of readings, -/
theorem readings_matrix (c : Dev nD) : (dats m 0 c).arrAt 4 cfg0.N = readingRows m c :=
  (dats m 0 c).arrAt_eq_of_cover 4 (readingRows m c) (fun t _ => wrote_readings m c t) tiled4

/-- and the second the matrix of carried fractions. -/
theorem carries_matrix (c : Dev nD) : (dats m 0 c).arrAt 5 cfg0.N = carryRows m c :=
  (dats m 0 c).arrAt_eq_of_cover 5 (carryRows m c) (fun t _ => wrote_carries m c t) tiled5

/-! ## Laid out flat again -/

/-- The first result is the flat inputs' readings: the output matrix laid out flat, the matrix being the readings of the
    inputs laid out in rows. -/
theorem flat_readings (c : Dev nD) :
    Pipeline.afterTail₀ cfgs (dats m) 0 (V0 m) [hostOps1] c main_v5
      = readings (s := S16777216) (m ((c : Thread nD τ).loc main_arg0)) (m ((c : Thread nD τ).loc main_arg1))
          (m ((c : Thread nD τ).loc main_arg2)) (m ((c : Thread nD τ).loc main_arg3)) := by
  have e : Pipeline.afterTail₀ cfgs (dats m) 0 (V0 m) [hostOps1] c main_v5
      = shapeCast S16777216 (readingRows m c) shapeCasts_S16384x1024_S16777216 := by
    unfold Pipeline.afterTail₀
    show StableHlo.after hostOps1 _ (Proc.devRef .tc main_v5) = _
    after_results
    exact congrArg (fun x : S16384x1024.Idx → Elt F .f32 => shapeCast S16777216 x shapeCasts_S16384x1024_S16777216)
      ((Pipeline.withArrays_arr spec0 launch0.win.arr_inj c _ _ 4).trans (readings_matrix m c))
  rw [e]
  unfold readingRows
  rw [rows0, rows1, rows2, rows3]
  exact readings_relaid _ _ _ _ _ _

/-- The second result is the flat inputs' carried fractions. -/
theorem flat_carries (c : Dev nD) :
    Pipeline.afterTail₀ cfgs (dats m) 0 (V0 m) [hostOps1] c main_v6
      = carries (s := S16777216) (m ((c : Thread nD τ).loc main_arg0)) (m ((c : Thread nD τ).loc main_arg1))
          (m ((c : Thread nD τ).loc main_arg3)) := by
  have e : Pipeline.afterTail₀ cfgs (dats m) 0 (V0 m) [hostOps1] c main_v6
      = shapeCast S16777216 (carryRows m c) shapeCasts_S16384x1024_S16777216 := by
    unfold Pipeline.afterTail₀
    show StableHlo.after hostOps1 _ (Proc.devRef .tc main_v6) = _
    after_results
    exact congrArg (fun x : S16384x1024.Idx → Elt F .f32 => shapeCast S16777216 x shapeCasts_S16384x1024_S16777216)
      ((Pipeline.withArrays_arr spec0 launch0.win.arr_inj c _ _ 5).trans (carries_matrix m c))
  rw [e]
  unfold carryRows
  rw [rows0, rows1, rows3]
  exact carries_relaid _ _ _ _ _

/-! ## The run -/

/-- From any memory with zero counters every weakly fair execution of the kernel's program terminates with its first
    result at every wheel's reading and its second at every wheel's carried fraction, of the launch contents, and the four
    arguments as launched. -/
theorem run : θ_run defs (onTc (τ := τ) (main (F := F))) ⟨m, fun _ => 0, ρ⟩ fun r => ∀ c : Dev nD,
      r.2.mem ((c.tc : Thread nD τ).loc main_v5)
          = readings (s := S16777216) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_v6)
          = carries (s := S16777216) (m ((c.tc : Thread nD τ).loc main_arg0)) (m ((c.tc : Thread nD τ).loc main_arg1))
              (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (flat_readings m c),
      ((h c).2 main_v6 (Pipeline.mem_restRefs_of main_v6 (by decide) (by decide))).trans (flat_carries m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Tiles

end
-- ==== Proof.RefRun.lean ====
/-
  The reference, run.  Its @main is a straight line of thirty-one tensor operations once the four small functions it calls
  are read in place — rounding toward zero (a comparison with zero, the ceiling, the floor, a choice between them) and three
  spellings of a choice with one side a constant —, so it ends with every buffer at the operations' composed value of the
  launch contents.  Read at one place, the two results are a wheel's reading and its carried fraction: the three state
  masks are equalities with 0, 1 and 2, the travel is the speed times the gain plus the old fraction, the host's quotient,
  ceiling and floor are the exact ones on the extended reals, and a broadcast constant is that constant everywhere.
-/
import proofs.«145690_j80255758893556_1_alg».proof.Proof.Gen.ReferenceIdeal
import proofs.«145690_j80255758893556_1_alg».proof.Proof.Encoder
import Idealize.ShloMosaic.Lib.StableHlo.Run

noncomputable section

namespace Cert.ReferenceIdeal.HostRun

open Cert.ReferenceIdeal Cert.ReferenceIdeal.Gen Cert.Encoder
open Idealize.ShloMosaic Idealize.ShloMosaic.TcCoe Idealize.SL.Sem Idealize.ShloMosaic.StableHlo

variable {F : FTy → Type} [FloatOps F]

/-- @main's operations in order, each call replaced by its callee's operations over that call's buffers: the three state
    masks (nine), the travel (four), rounding toward zero (five and the choice), the quotient and the difference (four), and
    the four nested choices with their constants (nine). -/
abbrev ops : List (HloOp τ sig (Elt F)) :=
  [ nullary main_c (constantI S_ 32 0#32),
    unary main_c main_v0 (broadcastInDim S16777216 ![] bcast_S_S16777216 : (⟨S_, .i32⟩ : BufTy).Contents (Elt F) → (⟨S16777216, .i32⟩ : BufTy).Contents (Elt F)),
    binary main_arg3 main_v0 main_v1 (cmpi .eq : (⟨S16777216, .i32⟩ : BufTy).Contents (Elt F) → (⟨S16777216, .i32⟩ : BufTy).Contents (Elt F) → (⟨S16777216, .i1⟩ : BufTy).Contents (Elt F)),
    nullary main_c_0 (constantI S_ 32 1#32),
    unary main_c_0 main_v2 (broadcastInDim S16777216 ![] bcast_S_S16777216 : (⟨S_, .i32⟩ : BufTy).Contents (Elt F) → (⟨S16777216, .i32⟩ : BufTy).Contents (Elt F)),
    binary main_arg3 main_v2 main_v3 (cmpi .eq : (⟨S16777216, .i32⟩ : BufTy).Contents (Elt F) → (⟨S16777216, .i32⟩ : BufTy).Contents (Elt F) → (⟨S16777216, .i1⟩ : BufTy).Contents (Elt F)),
    nullary main_c_1 (constantI S_ 32 2#32),
    unary main_c_1 main_v4 (broadcastInDim S16777216 ![] bcast_S_S16777216 : (⟨S_, .i32⟩ : BufTy).Contents (Elt F) → (⟨S16777216, .i32⟩ : BufTy).Contents (Elt F)),
    binary main_arg3 main_v4 main_v5 (cmpi .eq : (⟨S16777216, .i32⟩ : BufTy).Contents (Elt F) → (⟨S16777216, .i32⟩ : BufTy).Contents (Elt F) → (⟨S16777216, .i1⟩ : BufTy).Contents (Elt F)),
    nullary main_cst (constant S_ .f32 0x42026136#32),
    unary main_cst main_v6 (broadcastInDim S16777216 ![] bcast_S_S16777216 : (⟨S_, .f32⟩ : BufTy).Contents (Elt F) → (⟨S16777216, .f32⟩ : BufTy).Contents (Elt F)),
    binary main_arg0 main_v6 main_v7 (mulf : (⟨S16777216, .f32⟩ : BufTy).Contents (Elt F) → (⟨S16777216, .f32⟩ : BufTy).Contents (Elt F) → (⟨S16777216, .f32⟩ : BufTy).Contents (Elt F)),
    binary main_v7 main_arg1 main_v8 (addf : (⟨S16777216, .f32⟩ : BufTy).Contents (Elt F) → (⟨S16777216, .f32⟩ : BufTy).Contents (Elt F) → (⟨S16777216, .f32⟩ : BufTy).Contents (Elt F)),
    TRef.nullary main_call0.cst (constant S_ .f32 0x00000000#32),
    TRef.unary main_call0.cst main_call0.v0 (broadcastInDim S16777216 ![] bcast_S_S16777216),
    TRef.binary (.of main_v8) main_call0.v0 main_call0.v1 (cmpf .olt),
    TRef.unary (.of main_v8) main_call0.v2 Host.ceil,
    TRef.unary (.of main_v8) main_call0.v3 Host.floor,
    TRef.ternary main_call0.v1 main_call0.v2 main_call0.v3 main_call0.call0.v0 select,
    nullary main_cst_2 (constant S_ .f32 0x42026136#32),
    unary main_cst_2 main_v10 (broadcastInDim S16777216 ![] bcast_S_S16777216 : (⟨S_, .f32⟩ : BufTy).Contents (Elt F) → (⟨S16777216, .f32⟩ : BufTy).Contents (Elt F)),
    binary main_v9 main_v10 main_v11 (Host.divf : (⟨S16777216, .f32⟩ : BufTy).Contents (Elt F) → (⟨S16777216, .f32⟩ : BufTy).Contents (Elt F) → (⟨S16777216, .f32⟩ : BufTy).Contents (Elt F)),
    binary main_v8 main_v9 main_v12 (subf : (⟨S16777216, .f32⟩ : BufTy).Contents (Elt F) → (⟨S16777216, .f32⟩ : BufTy).Contents (Elt F) → (⟨S16777216, .f32⟩ : BufTy).Contents (Elt F)),
    nullary main_cst_3 (constant S_ .f32 0x00000000#32),
    TRef.unary (TRef.of main_cst_3 : TRef sig ⟨S_, .f32⟩) main_call1.v0 (broadcastInDim S16777216 ![] bcast_S_S16777216),
    TRef.ternary (.of main_v5) (.of main_arg2) main_call1.v0 main_call1.v1 select,
    TRef.ternary (.of main_v1) (.of main_v11) (.of main_v13) main_call2.v0 select,
    nullary main_cst_4 (constant S_ .f32 0x00000000#32),
    TRef.unary (TRef.of main_cst_4 : TRef sig ⟨S_, .f32⟩) main_call3.v0 (broadcastInDim S16777216 ![] bcast_S_S16777216),
    TRef.ternary (.of main_v3) main_call3.v0 (.of main_arg1) main_call3.v1 select,
    TRef.ternary (.of main_v1) (.of main_v12) (.of main_v15) main_call4.v0 select ]

set_option maxRecDepth 1024 in
/-- @main is that line: the callees' definitions opened at their calls, and the sequencing re-associated. -/
theorem main_eq (c : Dev nD) : main (F := F) c = seq ops := by
  simp only [main, fn_trunc.body, fn_where.body, fn_where_0.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches tensor values only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    binary_bufs_sub .., nullary_bufs_sub .., unary_bufs_sub .., binary_bufs_sub .., unary_bufs_sub .., unary_bufs_sub ..,
    ternary_bufs_sub .., nullary_bufs_sub .., unary_bufs_sub .., binary_bufs_sub .., binary_bufs_sub .., nullary_bufs_sub ..,
    unary_bufs_sub .., ternary_bufs_sub .., ternary_bufs_sub .., nullary_bufs_sub .., unary_bufs_sub .., ternary_bufs_sub ..,
    ternary_bufs_sub ..⟩

/-! ## The two results as the operations compose them -/

/-- A float constant broadcast over the flat array, -/
abbrev everywhere (x : FVec F S_ .f32) : FVec F S16777216 .f32 :=
  broadcastInDim S16777216 ![] bcast_S_S16777216 x

/-- and a state constant. -/
abbrev everyState (x : IVec S_ 32) : IVec S16777216 32 :=
  broadcastInDim S16777216 ![] bcast_S_S16777216 x

/-- The travel, array-wide: the speeds times the broadcast gain, plus the old fractions. -/
abbrev travel (a0 a1 : FVec F S16777216 .f32) : FVec F S16777216 .f32 :=
  addf (mulf a0 (everywhere (constant S_ .f32 0x42026136#32))) a1

/-- Rounding toward zero, array-wide, as the called function spells it. -/
abbrev wholeClicks (x : FVec F S16777216 .f32) : FVec F S16777216 .f32 :=
  select (cmpf .olt x (everywhere (constant S_ .f32 0x00000000#32))) (Host.ceil x) (Host.floor x)

/-- The first result's composed term. -/
abbrev firstResult (a0 a1 a2 : FVec F S16777216 .f32) (a3 : IVec S16777216 32) : FVec F S16777216 .f32 :=
  select (cmpi .eq a3 (everyState (constantI S_ 32 0#32)))
    (Host.divf (wholeClicks (travel a0 a1)) (everywhere (constant S_ .f32 0x42026136#32)))
    (select (cmpi .eq a3 (everyState (constantI S_ 32 2#32))) a2 (everywhere (constant S_ .f32 0x00000000#32)))

/-- The second result's composed term. -/
abbrev secondResult (a0 a1 : FVec F S16777216 .f32) (a3 : IVec S16777216 32) : FVec F S16777216 .f32 :=
  select (cmpi .eq a3 (everyState (constantI S_ 32 0#32)))
    (subf (travel a0 a1) (wholeClicks (travel a0 a1)))
    (select (cmpi .eq a3 (everyState (constantI S_ 32 1#32))) (everywhere (constant S_ .f32 0x00000000#32)) a1)

/-- Read at one place on the extended reals, the first composed term is the wheel's reading: a broadcast constant is that
    constant at every place, the host's quotient is the exact quotient, its ceiling and floor the exact ones. -/
theorem firstResult_eq (a0 a1 a2 : FVec Ideal S16777216 .f32) (a3 : IVec S16777216 32) :
    firstResult a0 a1 a2 a3 = readings a0 a1 a2 a3 := by
  funext i
  rfl

/-- And the second the carried fraction. -/
theorem secondResult_eq (a0 a1 : FVec Ideal S16777216 .f32) (a3 : IVec S16777216 32) :
    secondResult a0 a1 a3 = carries a0 a1 a3 := by
  funext i
  rfl

/-- On the extended reals, from any memory with zero counters: every weakly fair execution of the reference terminates
    with its first result at every wheel's reading and its second at every wheel's carried fraction, of the launch
    contents, and the four arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14)
          = readings (F := Ideal) (s := S16777216) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_v16)
          = carries (F := Ideal) (s := S16777216) (m ((c.tc : Thread nD τ).loc main_arg0)) (m ((c.tc : Thread nD τ).loc main_arg1))
              (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v14).trans ((by after_results_simp <;> rfl : _ = firstResult (F := Ideal) _ _ _ _).trans (firstResult_eq _ _ _ _)),
      (h c main_v16).trans ((by after_results_simp <;> rfl : _ = secondResult (F := Ideal) _ _ _).trans (secondResult_eq _ _ _)),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.HostRun

end
-- ==== Proof.lean ====
/-
  A wheel-encoder step over 16,777,216 wheels, computed two ways.  The kernel lays the four flat inputs out as 16384 rows of
  1024, sweeps a grid of 64 tiles of 256 rows, computing in each tile every place's reading and carried fraction, and lays the
  two outputs out flat again; the reference computes the same two expressions on the flat arrays in one pass.  On the extended
  reals the two agree place by place with no law of arithmetic used at all: both multiply by and divide by the same float
  word, both round toward zero by choosing the ceiling below zero and the floor elsewhere, both choose by the same three
  equalities of the state with 0, 1 and 2, and the host's quotient, ceiling and floor are the same exact operations as the
  kernel's.  What is left is bookkeeping of places: a tile is a set of whole rows, the tiles partition the rows, and a change
  of layout is a bijection of places under which a place-by-place expression is carried to itself.  So finiteness of the
  inputs is never used.  Nothing in the kernel was rewritten for its reading on the extended reals: that reading is the
  kernel's own text, and there is nothing to preserve.
-/
import proofs.«145690_j80255758893556_1_alg».proof.Defs
import proofs.«145690_j80255758893556_1_alg».proof.Proof.Gen.Kernel
import proofs.«145690_j80255758893556_1_alg».proof.Proof.Gen.Kernel.Frame
import proofs.«145690_j80255758893556_1_alg».proof.Proof.Gen.KernelIdeal
import proofs.«145690_j80255758893556_1_alg».proof.Proof.Gen.KernelIdeal.Frame
import proofs.«145690_j80255758893556_1_alg».proof.Proof.Gen.ReferenceIdeal
import proofs.«145690_j80255758893556_1_alg».proof.Proof.Gen.Pre_finite_inputs
import proofs.«145690_j80255758893556_1_alg».proof.Proof.KernelValue
import proofs.«145690_j80255758893556_1_alg».proof.Proof.RefRun

noncomputable section

namespace Cert.Proof

open Idealize.ShloMosaic Idealize.SL.Sem

/-- The kernel as printed terminates without a fault and keeps its arguments. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is a straight line of tensor operations: its run, with what it says of the results dropped. -/
theorem frame_reference : Cert.frame_ReferenceIdeal := fun m ρ _ =>
  (θ_run Cert.ReferenceIdeal.defs _ _).mono (fun _ h c => (h c).2.2) (Cert.ReferenceIdeal.HostRun.run m ρ)

/-- Both programs end with every wheel's reading and every wheel's carried fraction of the same flat inputs. -/
theorem algebraic : Cert.algebraic_KernelIdeal_ReferenceIdeal := by
  intro m ρ m' ρ' _ hagree
  refine ⟨_, _, Cert.KernelIdeal.Tiles.run (F := Ideal) m ρ, ?_⟩
  refine (θ_run Cert.ReferenceIdeal.defs _ _).mono (fun _ h c => ⟨(h c).1.trans ?_, (h c).2.1.trans ?_, (h c).2.2⟩)
    (Cert.ReferenceIdeal.HostRun.run m' ρ')
  · rw [(hagree c).1, (hagree c).2.1, (hagree c).2.2.1, (hagree c).2.2.2]
  · rw [(hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
